-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S5000x128 : Shape := ⟨2, ![5000, 128]⟩
abbrev S5000x1 : Shape := ⟨2, ![5000, 1]⟩
abbrev S1x128 : Shape := ⟨2, ![1, 128]⟩
abbrev S100000x40 : Shape := ⟨2, ![100000, 40]⟩
abbrev S10000x40 : Shape := ⟨2, ![10000, 40]⟩
abbrev S1700000x40 : Shape := ⟨2, ![1700000, 40]⟩
abbrev S5000x40 : Shape := ⟨2, ![5000, 40]⟩
abbrev S1x40 : Shape := ⟨2, ![1, 40]⟩

abbrev nBuf : Space → Nat
  | .hbm => 114
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S100000x128, .f32⟩
  | .hbm, ⟨62, _⟩ => ⟨S100000, .i32⟩
  | .hbm, ⟨63, _⟩ => ⟨S1700000, .i32⟩
  | .hbm, ⟨64, _⟩ => ⟨S1700000, .i32⟩
  | .hbm, ⟨65, _⟩ => ⟨S_, .f32⟩
  | .hbm, ⟨66, _⟩ => ⟨S1700000, .f32⟩
  | .hbm, ⟨67, _⟩ => ⟨S_, .f32⟩
  | .hbm, ⟨68, _⟩ => ⟨S100000, .f32⟩
  | .hbm, ⟨69, _⟩ => ⟨S1700000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .i1⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S1700000, .f32⟩
  | .hbm, ⟨97, _⟩ => ⟨S100000x40, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x40, .f32⟩
  | .hbm, ⟨107, _⟩ => ⟨S1700000x1, .f32⟩
  | .hbm, ⟨108, _⟩ => ⟨S1700000x40, .f32⟩
  | .hbm, ⟨109, _⟩ => ⟨S_, .f32⟩
  | .hbm, ⟨110, _⟩ => ⟨S100000x40, .f32⟩
  | .hbm, ⟨111, _⟩ => ⟨S1700000x1, .i32⟩
  | .hbm, ⟨112, _⟩ => ⟨S100000x40, .f32⟩
  | .hbm, ⟨113, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S10000x128, .f32⟩
  | .local _ .vmem, ⟨12, _⟩ => ⟨S10000x128, .f32⟩
  | .local _ .vmem, ⟨13, _⟩ => ⟨S128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x40, .f32⟩
  | .local _ .vmem, ⟨19, _⟩ => ⟨S10000x40, .f32⟩
  | .local _ .vmem, ⟨20, _⟩ => ⟨S10000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S5000x40, .f32⟩
  | .local _ .vmem, ⟨26, _⟩ => ⟨S5000x40, .f32⟩
  | .local _ .vmem, ⟨27, _⟩ => ⟨S10000x40, .f32⟩
  | .local _ .vmem, ⟨28, _⟩ => ⟨S10000x40, .f32⟩
  | .local _ .vmem, ⟨29, _⟩ => ⟨S40, .f32⟩
  | .local _ .vmem, ⟨30, _⟩ => ⟨S10000x40, .f32⟩
  | .local _ .vmem, ⟨31, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_15 : Ref sig .tc := ⟨.hbm, 87, rfl⟩
abbrev main_v64 : Ref sig .tc := ⟨.hbm, 88, rfl⟩
abbrev main_v65 : Ref sig .tc := ⟨.hbm, 89, rfl⟩
abbrev main_c_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_17 : Ref sig .tc := ⟨.hbm, 98, rfl⟩
abbrev main_v73 : Ref sig .tc := ⟨.hbm, 99, rfl⟩
abbrev main_v74 : Ref sig .tc := ⟨.hbm, 100, rfl⟩
abbrev main_c_18 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_19 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![340], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![340], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1700000_S1700000x1 : S1700000.ShapeCasts S1700000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  broadcasts_S5000x1_S5000x40 : S5000x1.Broadcasts S5000x40
  bcast_S_S100000x40 : S_.BroadcastsInDim S100000x40 (![] : Fin 0 → Fin S100000x40.rank)
  shapeCasts_S10000x40_S10000x40 : S10000x40.ShapeCasts S10000x40
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x40_S10000x40_1_0_0_1_n_n_wf : DotDims.WF S10000x128 S128x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S1700000x128.size a
  hwx1_0 : ∀ i : grid1.Coords, EltTy.bits .f32 = 32 ∨ (Rect.block (s := S1700000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1700000x1.size a
  hwx1_1 : ∀ i : grid1.Coords, EltTy.bits .f32 = 32 ∨ (Rect.block (s := S1700000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S1700000x128.size a
  hwx1_2 : ∀ i : grid1.Coords, EltTy.bits .f32 = 32 ∨ (Rect.block (s := S1700000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S1700000x40.size a
  hwx4_0 : ∀ i : grid4.Coords, EltTy.bits .f32 = 32 ∨ (Rect.block (s := S1700000x40) S5000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S1700000x1.size a
  hwx4_1 : ∀ i : grid4.Coords, EltTy.bits .f32 = 32 ∨ (Rect.block (s := S1700000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S1700000x40.size a
  hwx4_2 : ∀ i : grid4.Coords, EltTy.bits .f32 = 32 ∨ (Rect.block (s := S1700000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S100000x40.size a
  hwx5_0 : ∀ i : grid5.Coords, EltTy.bits .f32 = 32 ∨ (Rect.block (s := S100000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S40.size a ≤ S40.size a
  hwx5_1 : ∀ i : grid5.Coords, EltTy.bits .f32 = 32 ∨ (Rect.block (s := S40) S40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S100000x40.size a
  hwx5_2 : ∀ i : grid5.Coords, EltTy.bits .f32 = 32 ∨ (Rect.block (s := S100000x40) S10000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S100000x40, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x40, .f32⟩
  | .hbm, ⟨115, _⟩ => ⟨S1700000x1, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | .hbm, ⟨122, _⟩ => ⟨S1x40, .f32⟩
  | .hbm, ⟨123, _⟩ => ⟨S100000x40, .f32⟩
  | .hbm, ⟨124, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.RegionDot.lean ====
import proofs.«108383_j15479062135311_1_alg».proof.Proof.Gen.KernelIdeal.Frame
import proofs.«108383_j15479062135311_1_alg».proof.Proof.Gen.ReferenceIdeal
import proofs.«108383_j15479062135311_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

section Blocks

open Idealize.ShloMosaic.ValueIdx

/-! ## The two products at an entry

Each matrix-product region multiplies a [100000, 128] array by a resident [128, N] array, ten row blocks of 10000 rows at
a time. On the extended reals the body's product of a row block into the zero block, read at (p, q), is
`∑ k, x (p, k) · w (k, q)`, and so is the host's product of the whole arrays: the result array is the host's product
because every entry of it is written by the one row block that holds its row, with the same sum. -/

/-- The host's plain M×K by K×N product, at entry (p, q), is `∑ k, x (p, k) · w (k, q)`: the sum over the one
    contracted axis, re-indexed by that axis's coordinate. -/
theorem host_plain_apply (M K N : Nat) (x : FVec Ideal ⟨2, ![M, K]⟩ .f32) (w : FVec Ideal ⟨2, ![K, N]⟩ .f32) (p : Fin M) (q : Fin N) :
    Host.dotGeneral (F := Ideal) (φ₁ := .f32) (φ₂ := .f32) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact PlainDot.lhs_row M K N _ _
      | ⟨1, _⟩ => exact (PlainDot.lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (PlainDot.rhs_row M K N _ _).trans hk
      | ⟨1, _⟩ => exact PlainDot.rhs_col M K N _ _)
  rw [el, er]

/-- A block's offsets on both axes are zero. -/
theorem zero_offsets : (![0, 0] : Fin 2 → Nat) = fun _ => 0 := funext fun a => by fin_cases a <;> rfl

/-! ## Region 0: rows by a resident 128×128 operand, ten row blocks of 10000 rows -/

/-- The body's product of a row block and the resident operand, at an entry: the roundings of the operands change
    nothing on the extended reals, and the product into the zero block is the sum over the shared axis. -/
theorem body0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact PlainDot.matmul_zero_apply 10000 128 128 (φ₁ := .bf16) (φ₂ := .bf16) x0 x1 p q

/-- The host's product of the whole arrays, at an entry: the same sum over the shared axis. -/
theorem host0_apply (x : FVec Ideal S100000x128 .f32) (w : FVec Ideal S128x128 .f32) (p : Fin 100000) (q : Fin 128) :
    Host.dotGeneral (F := Ideal) (φ₁ := .f32) (φ₂ := .f32) Cert.ReferenceIdeal.dot_S100000x128_S128x128_S100000x128_1_0_0_1_n_n none x w (ix2 p q)
      = ∑ k : Fin 128, x (ix2 p k) * w (ix2 k q) :=
  host_plain_apply 100000 128 128 x w p q

/-- The block index maps over the ten grid points: the row blocks of the left operand and of the result move with the
    point, on the column axis and for the resident operand the block index is 0. -/
theorem index_maps0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- An index of the result array is in point `t`'s block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- A row block's product is the whole product's rows: when `x0` holds rows `n·10000 …` of `A` and `x1` is `W`, the body's
    result at (p, q) is the host's product of `A` and `W` at (n·10000 + p, q) — both are the same sum of the same products. -/
theorem rows0_entry (A : FVec Ideal S100000x128 .f32) (W : FVec Ideal S128x128 .f32)
    (x0 : Vec Ideal S10000x128 .f32) (x1 : Vec Ideal S128x128 .f32) (n : Nat)
    (h0 : ∀ (p : Fin 10000) (k : Fin 128) (P : Fin 100000), P.val = n * 10000 + p.val → x0 (ix2 p k) = A (ix2 P k))
    (h1 : ∀ (k : Fin 128) (q : Fin 128), x1 (ix2 k q) = W (ix2 k q))
    (p : Fin 10000) (q : Fin 128) (P : Fin 100000) (hP : P.val = n * 10000 + p.val) :
    k0_pay1 (F := Ideal) x0 x1 (ix2 p q)
      = Host.dotGeneral (F := Ideal) (φ₁ := .f32) (φ₂ := .f32) Cert.ReferenceIdeal.dot_S100000x128_S128x128_S100000x128_1_0_0_1_n_n none A W (ix2 P q) := by
  rw [body0_apply, host0_apply]
  refine Finset.sum_congr rfl fun k _ => ?_
  rw [h0 p k P hP, h1]

/-- What grid point `t` writes back is block `t` of the host's product of the two operand arrays: the left operand's
    block holds rows `t·10000 …` of its array, the resident operand's block is its whole array, and the result's block
    sits at rows `t·10000 …`. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x128_S128x128_S100000x128_1_0_0_1_n_n none (V c main_arg0 : FVec Ideal S100000x128 .f32) (V c main_arg2 : FVec Ideal S128x128 .f32)) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := index_maps0 t
  have ht : t.val < 10 := by have h : t.val < grid0.N := t.isLt; rw [N_0] at h; exact h
  funext j
  have hj0 : (j 0).val < 10000 := (j 0).isLt
  have key := rows0_entry (V c main_arg0) (V c main_arg2) (iblk0 V c 0 t) (iblk0 V c 1 t) t.val ?_ ?_ (j 0) (j 1)
    ⟨t.val * 10000 + (j 0).val, by omega⟩ rfl
  · refine (congrArg (k0_pay1 (F := Ideal) (iblk0 V c 0 t) (iblk0 V c 1 t)) (eq_ix2 (n0 := 10000) (n1 := 128) j)).trans (key.trans ?_)
    show Host.dotGeneral (F := Ideal) (φ₁ := .f32) (φ₂ := .f32) Cert.ReferenceIdeal.dot_S100000x128_S128x128_S100000x128_1_0_0_1_n_n none (V c main_arg0 : FVec Ideal S100000x128 .f32) (V c main_arg2 : FVec Ideal S128x128 .f32) _
      = Host.dotGeneral (F := Ideal) (φ₁ := .f32) (φ₂ := .f32) Cert.ReferenceIdeal.dot_S100000x128_S128x128_S100000x128_1_0_0_1_n_n none (V c main_arg0 : FVec Ideal S100000x128 .f32) (V c main_arg2 : FVec Ideal S128x128 .f32) (((cfg0.win 2).blk t).view.emb j)
    refine congrArg _ (funext fun a => Fin.ext ?_)
    match a with
    | ⟨0, _⟩ => show t.val * 10000 + (j 0).val = win0_2.index t (0 : Fin 2) * 10000 + 1 * (j 0).val; omega
    | ⟨1, _⟩ => show (j 1).val = win0_2.index t (1 : Fin 2) * 128 + 1 * (j 1).val; omega
  · intro p k P hP
    show V c main_arg0 (((cfg0.win 0).blk t).view.emb (ix2 p k)) = V c main_arg0 (ix2 P k)
    refine congrArg _ (funext fun a => Fin.ext ?_)
    match a with
    | ⟨0, _⟩ => show win0_0.index t (0 : Fin 2) * 10000 + 1 * p.val = P.val; omega
    | ⟨1, _⟩ => show win0_0.index t (1 : Fin 2) * 128 + 1 * k.val = k.val; omega
  · intro k q
    show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- The ten row blocks cover the result array: row `r` lies in the block of the point `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < grid0.N := by rw [N_0]; omega
  refine ⟨⟨(i 0).val / 10000, hN⟩, flush0_2 _, ?_⟩
  rw [mem_block0]
  obtain ⟨e0, e1, -⟩ := index_maps0 ⟨(i 0).val / 10000, hN⟩
  have e0' : win0_2.index ⟨(i 0).val / 10000, hN⟩ (0 : Fin 2) = (i 0).val / 10000 := e0
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 128 ≤ (i 1).val ∧ (i 1).val < win0_2.index ⟨(i 0).val / 10000, hN⟩ (1 : Fin 2) * 128 + 128; omega

/-! ## Region 3: rows by a resident 128×40 operand, ten row blocks of 10000 rows -/

/-- The body's product of a row block and the resident operand, at an entry: the roundings of the operands change
    nothing on the extended reals (nor does the cast to the same shape), and the product into the zero block is the sum over the shared axis. -/
theorem body3_apply (x0 : Vec Ideal S10000x128 .f32) (x1 : Vec Ideal S128x40 .f32) (p : Fin 10000) (q : Fin 40) :
    k3_pay1 (F := Ideal) x0 x1 (ix2 p q) = ∑ k : Fin 128, x0 (ix2 p k) * x1 (ix2 k q) := by
  unfold k3_pay1
  simp only [shapeCast_self]
  exact PlainDot.matmul_zero_apply 10000 128 40 (φ₁ := .bf16) (φ₂ := .bf16) x0 x1 p q

/-- The host's product of the whole arrays, at an entry: the same sum over the shared axis. -/
theorem host3_apply (x : FVec Ideal S100000x128 .f32) (w : FVec Ideal S128x40 .f32) (p : Fin 100000) (q : Fin 40) :
    Host.dotGeneral (F := Ideal) (φ₁ := .f32) (φ₂ := .f32) Cert.ReferenceIdeal.dot_S100000x128_S128x40_S100000x40_1_0_0_1_n_n none x w (ix2 p q)
      = ∑ k : Fin 128, x (ix2 p k) * w (ix2 k q) :=
  host_plain_apply 100000 128 40 x w p q

/-- The block index maps over the ten grid points: the row blocks of the left operand and of the result move with the
    point, on the column axis and for the resident operand the block index is 0. -/
theorem index_maps3 : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- An index of the result array is in point `t`'s block iff each coordinate is in the block's range on its axis. -/
theorem mem_block3 (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v72).slice (win3_2.rect t)).set ↔ _
  rw [View.set_slice_whole, Rect.mem_set_unit]
  exact Iff.rfl

/-- A row block's product is the whole product's rows: when `x0` holds rows `n·10000 …` of `A` and `x1` is `W`, the body's
    result at (p, q) is the host's product of `A` and `W` at (n·10000 + p, q) — both are the same sum of the same products. -/
theorem rows3_entry (A : FVec Ideal S100000x128 .f32) (W : FVec Ideal S128x40 .f32)
    (x0 : Vec Ideal S10000x128 .f32) (x1 : Vec Ideal S128x40 .f32) (n : Nat)
    (h0 : ∀ (p : Fin 10000) (k : Fin 128) (P : Fin 100000), P.val = n * 10000 + p.val → x0 (ix2 p k) = A (ix2 P k))
    (h1 : ∀ (k : Fin 128) (q : Fin 40), x1 (ix2 k q) = W (ix2 k q))
    (p : Fin 10000) (q : Fin 40) (P : Fin 100000) (hP : P.val = n * 10000 + p.val) :
    k3_pay1 (F := Ideal) x0 x1 (ix2 p q)
      = Host.dotGeneral (F := Ideal) (φ₁ := .f32) (φ₂ := .f32) Cert.ReferenceIdeal.dot_S100000x128_S128x40_S100000x40_1_0_0_1_n_n none A W (ix2 P q) := by
  rw [body3_apply, host3_apply]
  refine Finset.sum_congr rfl fun k _ => ?_
  rw [h0 p k P hP, h1]

/-- What grid point `t` writes back is block `t` of the host's product of the two operand arrays: the left operand's
    block holds rows `t·10000 …` of its array, the resident operand's block is its whole array, and the result's block
    sits at rows `t·10000 …`. -/
theorem flushed3_eq (c : Dev nD) (t : Fin cfg3.N) :
    (dat3 (F := Ideal) V c).flushed 2 t = ((cfg3.win 2).blk t).view.read (Elt Ideal)
      (Host.dotGeneral (F := Ideal) (φ₁ := .f32) (φ₂ := .f32) Cert.ReferenceIdeal.dot_S100000x128_S128x40_S100000x40_1_0_0_1_n_n none (V c main_v44 : FVec Ideal S100000x128 .f32) (V c main_arg4 : FVec Ideal S128x40 .f32)) := by
  show (cfg3.win 2).cut (grid3.coords t) ((dat3 (F := Ideal) V c).after 2 t) = _
  rw [after3_2]
  unfold out3_2
  rw [View.canon_unit_zero zero_offsets]
  simp only [View.ld_unit_zero (S := S10000x128) zero_offsets, View.ld_unit_zero (S := S128x40) zero_offsets]
  obtain ⟨e0, e1, e2, e3, e4, e5⟩ := index_maps3 t
  have ht : t.val < 10 := by have h : t.val < grid3.N := t.isLt; rw [N_3] at h; exact h
  funext j
  have hj0 : (j 0).val < 10000 := (j 0).isLt
  have key := rows3_entry (V c main_v44) (V c main_arg4) (iblk3 V c 0 t) (iblk3 V c 1 t) t.val ?_ ?_ (j 0) (j 1)
    ⟨t.val * 10000 + (j 0).val, by omega⟩ rfl
  · refine (congrArg (k3_pay1 (F := Ideal) (iblk3 V c 0 t) (iblk3 V c 1 t)) (eq_ix2 (n0 := 10000) (n1 := 40) j)).trans (key.trans ?_)
    show Host.dotGeneral (F := Ideal) (φ₁ := .f32) (φ₂ := .f32) Cert.ReferenceIdeal.dot_S100000x128_S128x40_S100000x40_1_0_0_1_n_n none (V c main_v44 : FVec Ideal S100000x128 .f32) (V c main_arg4 : FVec Ideal S128x40 .f32) _
      = Host.dotGeneral (F := Ideal) (φ₁ := .f32) (φ₂ := .f32) Cert.ReferenceIdeal.dot_S100000x128_S128x40_S100000x40_1_0_0_1_n_n none (V c main_v44 : FVec Ideal S100000x128 .f32) (V c main_arg4 : FVec Ideal S128x40 .f32) (((cfg3.win 2).blk t).view.emb j)
    refine congrArg _ (funext fun a => Fin.ext ?_)
    match a with
    | ⟨0, _⟩ => show t.val * 10000 + (j 0).val = win3_2.index t (0 : Fin 2) * 10000 + 1 * (j 0).val; omega
    | ⟨1, _⟩ => show (j 1).val = win3_2.index t (1 : Fin 2) * 40 + 1 * (j 1).val; omega
  · intro p k P hP
    show V c main_v44 (((cfg3.win 0).blk t).view.emb (ix2 p k)) = V c main_v44 (ix2 P k)
    refine congrArg _ (funext fun a => Fin.ext ?_)
    match a with
    | ⟨0, _⟩ => show win3_0.index t (0 : Fin 2) * 10000 + 1 * p.val = P.val; omega
    | ⟨1, _⟩ => show win3_0.index t (1 : Fin 2) * 128 + 1 * k.val = k.val; omega
  · intro k q
    show V c main_arg4 (((cfg3.win 1).blk t).view.emb (ix2 k q)) = V c main_arg4 (ix2 k q)
    refine congrArg _ (funext fun a => Fin.ext ?_)
    match a with
    | ⟨0, _⟩ => show win3_1.index t (0 : Fin 2) * 128 + 1 * k.val = k.val; omega
    | ⟨1, _⟩ => show win3_1.index t (1 : Fin 2) * 40 + 1 * q.val = q.val; omega

/-- The ten row blocks cover the result array: row `r` lies in the block of the point `r / 10000`. -/
theorem cover3 (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : (i 0).val / 10000 < grid3.N := by rw [N_3]; omega
  refine ⟨⟨(i 0).val / 10000, hN⟩, flush3_2 _, ?_⟩
  rw [mem_block3]
  obtain ⟨e0, e1, -⟩ := index_maps3 ⟨(i 0).val / 10000, hN⟩
  have e0' : win3_2.index ⟨(i 0).val / 10000, hN⟩ (0 : Fin 2) = (i 0).val / 10000 := e0
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; omega
  | ⟨1, _⟩ => show win3_2.index ⟨(i 0).val / 10000, hN⟩ (1 : Fin 2) * 40 ≤ (i 1).val ∧ (i 1).val < win3_2.index ⟨(i 0).val / 10000, hN⟩ (1 : Fin 2) * 40 + 40; omega

end Blocks

/-! ## The two result arrays -/

/-- The first product's result array after its region: the host's `dot_general` of the two operand arrays (row block by row block the body's product into the zero block; at an entry both are the sum over the shared axis). -/
theorem region0_value (c : Dev nD) :
    ((dat0 (F := Ideal) V c).arrAt 2 cfg0.N : FVec Ideal S100000x128 .f32)
      = Host.dotGeneral (F := Ideal) (φ₁ := .f32) (φ₂ := .f32) Cert.ReferenceIdeal.dot_S100000x128_S128x128_S100000x128_1_0_0_1_n_n none (V c main_arg0 : FVec Ideal S100000x128 .f32) (V c main_arg2 : FVec Ideal S128x128 .f32) := by
  show (dat0 (F := Ideal) V c).arrAt 2 cfg0.N = _
  exact (dat0 (F := Ideal) V c).arrAt_eq_of_cover 2 _ (fun t _ => flushed0_eq V c t) cover0

/-- The second product's result array after its region: the host's `dot_general` of the two operand arrays. -/
theorem region3_value (c : Dev nD) :
    ((dat3 (F := Ideal) V c).arrAt 2 cfg3.N : FVec Ideal S100000x40 .f32)
      = Host.dotGeneral (F := Ideal) (φ₁ := .f32) (φ₂ := .f32) Cert.ReferenceIdeal.dot_S100000x128_S128x40_S100000x40_1_0_0_1_n_n none (V c main_v44 : FVec Ideal S100000x128 .f32) (V c main_arg4 : FVec Ideal S128x40 .f32) := by
  show (dat3 (F := Ideal) V c).arrAt 2 cfg3.N = _
  exact (dat3 (F := Ideal) V c).arrAt_eq_of_cover 2 _ (fun t _ => flushed3_eq V c t) cover3

end Cert.KernelIdeal.Hand

end
-- ==== Proof.RegionScale.lean ====
import proofs.«108383_j15479062135311_1_alg».proof.Proof.Gen.KernelIdeal.Frame
import proofs.«108383_j15479062135311_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The zero offsets of a whole-buffer access, as a constant function. -/
theorem offsets_zero : (![0, 0] : Fin 2 → Nat) = fun _ => 0 := funext fun a => by fin_cases a <;> rfl

/-! ## The scaled messages of width 128 -/

/-- The host's product of the gathered rows with the weight column broadcast along the feature axis (width 128). -/
abbrev scaled128 (g : FVec Ideal S1700000x128 .f32) (n : FVec Ideal S1700000x1 .f32) : FVec Ideal S1700000x128 .f32 :=
  mulf (F := Ideal) (φ := .f32) g (broadcastInDim (α := Ideal .f32) Cert.ReferenceIdeal.S1700000x128 ![0, 1] Cert.ReferenceIdeal.Gen.bcast_S1700000x1_S1700000x128_0_1 n)

/-- Entry (e, j) of the host's product is the gathered entry (e, j) times the weight of row e: the broadcast reads the
    column at row e, its unit axis at 0. -/
theorem scaled128_apply (g : FVec Ideal S1700000x128 .f32) (n : FVec Ideal S1700000x1 .f32) (e : Fin 1700000) (j : Fin 128) :
    scaled128 g n (ValueIdx.ix2 e j) = g (ValueIdx.ix2 e j) * n (ValueIdx.ix2 e (⟨0, Nat.one_pos⟩ : Fin 1)) := by
  refine (ValueIdx.mulf_apply _ _ _).trans ?_
  refine congrArg (g (ValueIdx.ix2 e j) * ·) ?_
  exact broadcastInDim_apply _ _ n (ValueIdx.ix2 e j) (ValueIdx.ix2 e (⟨0, Nat.one_pos⟩ : Fin 1)) (fun a => match a with
    | ⟨0, _⟩ => by show e.val = if (1700000 : Nat) = 1 then 0 else e.val; rw [if_neg (by decide)]
    | ⟨1, _⟩ => by show 0 = if (1 : Nat) = 1 then 0 else j.val; rw [if_pos rfl])

/-- Entry (p, q) of the body's product on a block: the two casts to the same shape are the identity, the broadcast of
    the [5000, 1] column reads it at row p, and the product is entrywise. -/
theorem body128_apply (x0 : FVec Ideal S5000x128 .f32) (x1 : FVec Ideal S5000x1 .f32) (p : Fin 5000) (q : Fin 128) :
    (k1_pay1 (F := Ideal) x0 x1) (ValueIdx.ix2 p q) = x0 (ValueIdx.ix2 p q) * x1 (ValueIdx.ix2 p (⟨0, Nat.one_pos⟩ : Fin 1)) := by
  unfold k1_pay1
  refine (ValueIdx.mulf_apply _ _ _).trans ?_
  refine congrArg₂ (· * ·) ?_ ?_
  · exact congrFun (shapeCast_self x0 _) _
  · refine (broadcastTo_apply _ _ (ValueIdx.ix2 p q) (ValueIdx.ix2 p (⟨0, Nat.one_pos⟩ : Fin 1)) ?_).trans ?_
    · intro a
      match a with
      | ⟨0, _⟩ => show p.val = if (5000 : Nat) = 1 then 0 else p.val; rw [if_neg (by decide)]
      | ⟨1, _⟩ => show 0 = if (1 : Nat) = 1 then 0 else _; rw [if_pos rfl]
    · exact congrFun (shapeCast_self x1 _) _

/-- The three index maps over the 340 grid points: each window's row-block index is the point's number, its column-block
    index 0. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The block of gathered rows at point `t` holds rows 5000·t … 5000·t + 4999 of its array, all 128 columns. -/
theorem rows_block1 (c : Dev nD) (t : Fin cfg1.N) (y : S5000x128.Idx) (k : S1700000x128.Idx)
    (hk0 : (k 0).val = t.val * 5000 + (y 0).val) (hk1 : (k 1).val = (y 1).val) :
    (iblk1 (F := Ideal) V c 0 t : Vec Ideal S5000x128 .f32) y = (V c main_v38 : S1700000x128.Idx → Elt Ideal .f32) k := by
  obtain ⟨e0, e1, -, -, -, -⟩ := index_maps1 t
  unfold iblk1
  show V c main_v38 (((cfg1.win 0).blk t).view.emb y) = V c main_v38 k
  refine congrArg _ (funext fun a => Fin.ext ?_)
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- The block of edge weights at point `t` holds rows 5000·t … 5000·t + 4999 of the weight column. -/
theorem weights_block1 (c : Dev nD) (t : Fin cfg1.N) (y : S5000x1.Idx) (k : S1700000x1.Idx)
    (hk0 : (k 0).val = t.val * 5000 + (y 0).val) :
    (iblk1 (F := Ideal) V c 1 t : Vec Ideal S5000x1 .f32) y = (V c main_v39 : S1700000x1.Idx → Elt Ideal .f32) k := by
  obtain ⟨-, -, e0, e1, -, -⟩ := index_maps1 t
  unfold iblk1
  show V c main_v39 (((cfg1.win 1).blk t).view.emb y) = V c main_v39 k
  refine congrArg _ (funext fun a => Fin.ext ?_)
  match a with
  | ⟨0, _⟩ => show win1_1.index t (0 : Fin 2) * 5000 + 1 * (y 0).val = (k 0).val; rw [e0, hk0]; omega
  | ⟨1, _⟩ =>
    show win1_1.index t (1 : Fin 2) * 1 + 1 * (y 1).val = (k 1).val
    have hy : (y 1).val < 1 := (y 1).isLt
    have hk : (k 1).val < 1 := (k 1).isLt
    rw [e1]; omega

/-- One entry of the body's product against one entry of the host's, for blocks that hold the arrays' rows from row
    `tv * 5000` on: both are the gathered entry times the weight of its row. -/
theorem entry128 (x0 : FVec Ideal S5000x128 .f32) (x1 : FVec Ideal S5000x1 .f32) (g : FVec Ideal S1700000x128 .f32) (n : FVec Ideal S1700000x1 .f32)
    (tv : Nat) (j : S5000x128.Idx) (i : S1700000x128.Idx)
    (hi0 : (i 0).val = tv * 5000 + (j 0).val) (hi1 : (i 1).val = (j 1).val)
    (h0 : ∀ (y : S5000x128.Idx) (k : S1700000x128.Idx), (k 0).val = tv * 5000 + (y 0).val → (k 1).val = (y 1).val → x0 y = g k)
    (h1 : ∀ (y : S5000x1.Idx) (k : S1700000x1.Idx), (k 0).val = tv * 5000 + (y 0).val → x1 y = n k) :
    k1_pay1 (F := Ideal) x0 x1 j = scaled128 g n i := by
  obtain ⟨p, q, rfl⟩ : ∃ (p : Fin 5000) (q : Fin 128), j = ValueIdx.ix2 p q := ⟨j 0, j 1, ValueIdx.eq_ix2 j⟩
  obtain ⟨r, s, rfl⟩ : ∃ (r : Fin 1700000) (s : Fin 128), i = ValueIdx.ix2 r s := ⟨i 0, i 1, ValueIdx.eq_ix2 i⟩
  rw [body128_apply, scaled128_apply, h0 (ValueIdx.ix2 p q) (ValueIdx.ix2 r s) hi0 hi1,
    h1 (ValueIdx.ix2 p (⟨0, Nat.one_pos⟩ : Fin 1)) (ValueIdx.ix2 r (⟨0, Nat.one_pos⟩ : Fin 1)) hi0]

/-- What point `t` writes back is block `t` of the host's product of the two arrays. -/
theorem written_block1 (c : Dev nD) (t : Fin cfg1.N) :
    (dat1 (F := Ideal) V c).flushed 2 t = ((cfg1.win 2).blk t).view.read (Elt Ideal) (scaled128 (V c main_v38) (V c main_v39)) := by
  show (cfg1.win 2).cut (grid1.coords t) ((dat1 (F := Ideal) V c).after 2 t) = _
  rw [after1_2]
  unfold out1_2
  rw [View.canon_unit_zero offsets_zero]
  simp only [View.ld_unit_zero (S := S5000x128) offsets_zero, View.ld_unit_zero (S := S5000x1) offsets_zero]
  obtain ⟨-, -, -, -, e0, e1⟩ := index_maps1 t
  funext j
  show k1_pay1 (F := Ideal) (iblk1 V c 0 t) (iblk1 V c 1 t) j = scaled128 (V c main_v38) (V c main_v39) (((cfg1.win 2).blk t).view.emb j)
  refine entry128 _ _ _ _ t.val j _ ?_ ?_ (fun y k h0 h1 => rows_block1 V c t y k h0 h1) (fun y k h0 => weights_block1 V c t y k h0)
  · show win1_2.index t (0 : Fin 2) * 5000 + 1 * (j 0).val = t.val * 5000 + (j 0).val
    rw [e0]; omega
  · show win1_2.index t (1 : Fin 2) * 128 + 1 * (j 1).val = (j 1).val
    rw [e1]; omega

/-- An index of the array is in point `t`'s block iff each coordinate is in the block's range on its axis. -/
theorem mem_block1 (t : Fin cfg1.N) (i : S1700000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v40).slice (win1_2.rect t)).set ↔ _
  rw [View.set_slice_whole, Rect.mem_set_unit]
  exact Iff.rfl

/-- Every index of the array is in the block of a point that writes back: row `r` is in block `r / 5000`, since
    340 · 5000 = 1700000. -/
theorem rows_covered1 (i : S1700000x128.Idx) :
    ∃ t : Fin cfg1.N, (cfg1.win 2).flush t = true ∧ i ∈ ((cfg1.win 2).blk t).view.set := by
  have hi0 : (i 0).val < 1700000 := (i 0).isLt
  have hi1 : (i 1).val < 128 := (i 1).isLt
  have hN : cfg1.N = 340 := N_1
  let t : Fin cfg1.N := ⟨(i 0).val / 5000, by rw [hN]; omega⟩
  obtain ⟨-, -, -, -, e0, e1⟩ := index_maps1 t
  have ht : t.val = (i 0).val / 5000 := rfl
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    rw [e0, ht]; omega
  | ⟨1, _⟩ =>
    show win1_2.index t (1 : Fin 2) * 128 ≤ (i 1).val ∧ (i 1).val < win1_2.index t (1 : Fin 2) * 128 + 128
    rw [e1]; omega

/-- The scaled messages after their region (width 128): entry (e, j) is the gathered entry times the edge weight of row e, which is the host's product with the weight column broadcast along the feature axis. -/
theorem region1_value (c : Dev nD) :
    ((dat1 (F := Ideal) V c).arrAt 2 cfg1.N : FVec Ideal S1700000x128 .f32)
      = mulf (F := Ideal) (φ := .f32) (V c main_v38 : FVec Ideal S1700000x128 .f32) (broadcastInDim (α := Ideal .f32) Cert.ReferenceIdeal.S1700000x128 ![0, 1] Cert.ReferenceIdeal.Gen.bcast_S1700000x1_S1700000x128_0_1 (V c main_v39 : FVec Ideal S1700000x1 .f32)) := by
  show (dat1 (F := Ideal) V c).arrAt 2 cfg1.N = _
  exact (dat1 (F := Ideal) V c).arrAt_eq_of_cover 2 (scaled128 (V c main_v38) (V c main_v39)) (fun t _ => written_block1 V c t) rows_covered1

/-! ## The scaled messages of width 40 -/

/-- The host's product of the gathered rows with the weight column broadcast along the feature axis (width 40). -/
abbrev scaled40 (g : FVec Ideal S1700000x40 .f32) (n : FVec Ideal S1700000x1 .f32) : FVec Ideal S1700000x40 .f32 :=
  mulf (F := Ideal) (φ := .f32) g (broadcastInDim (α := Ideal .f32) Cert.ReferenceIdeal.S1700000x40 ![0, 1] Cert.ReferenceIdeal.Gen.bcast_S1700000x1_S1700000x40_0_1 n)

/-- Entry (e, j) of the host's product is the gathered entry (e, j) times the weight of row e: the broadcast reads the
    column at row e, its unit axis at 0. -/
theorem scaled40_apply (g : FVec Ideal S1700000x40 .f32) (n : FVec Ideal S1700000x1 .f32) (e : Fin 1700000) (j : Fin 40) :
    scaled40 g n (ValueIdx.ix2 e j) = g (ValueIdx.ix2 e j) * n (ValueIdx.ix2 e (⟨0, Nat.one_pos⟩ : Fin 1)) := by
  refine (ValueIdx.mulf_apply _ _ _).trans ?_
  refine congrArg (g (ValueIdx.ix2 e j) * ·) ?_
  exact broadcastInDim_apply _ _ n (ValueIdx.ix2 e j) (ValueIdx.ix2 e (⟨0, Nat.one_pos⟩ : Fin 1)) (fun a => match a with
    | ⟨0, _⟩ => by show e.val = if (1700000 : Nat) = 1 then 0 else e.val; rw [if_neg (by decide)]
    | ⟨1, _⟩ => by show 0 = if (1 : Nat) = 1 then 0 else j.val; rw [if_pos rfl])

/-- Entry (p, q) of the body's product on a block: the two casts to the same shape are the identity, the broadcast of
    the [5000, 1] column reads it at row p, and the product is entrywise. -/
theorem body40_apply (x0 : FVec Ideal S5000x40 .f32) (x1 : FVec Ideal S5000x1 .f32) (p : Fin 5000) (q : Fin 40) :
    (k4_pay1 (F := Ideal) x0 x1) (ValueIdx.ix2 p q) = x0 (ValueIdx.ix2 p q) * x1 (ValueIdx.ix2 p (⟨0, Nat.one_pos⟩ : Fin 1)) := by
  unfold k4_pay1
  refine (ValueIdx.mulf_apply _ _ _).trans ?_
  refine congrArg₂ (· * ·) ?_ ?_
  · exact congrFun (shapeCast_self x0 _) _
  · refine (broadcastTo_apply _ _ (ValueIdx.ix2 p q) (ValueIdx.ix2 p (⟨0, Nat.one_pos⟩ : Fin 1)) ?_).trans ?_
    · intro a
      match a with
      | ⟨0, _⟩ => show p.val = if (5000 : Nat) = 1 then 0 else p.val; rw [if_neg (by decide)]
      | ⟨1, _⟩ => show 0 = if (1 : Nat) = 1 then 0 else _; rw [if_pos rfl]
    · exact congrFun (shapeCast_self x1 _) _

/-- The three index maps over the 340 grid points: each window's row-block index is the point's number, its column-block
    index 0. -/
theorem index_maps4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The block of gathered rows at point `t` holds rows 5000·t … 5000·t + 4999 of its array, all 40 columns. -/
theorem rows_block4 (c : Dev nD) (t : Fin cfg4.N) (y : S5000x40.Idx) (k : S1700000x40.Idx)
    (hk0 : (k 0).val = t.val * 5000 + (y 0).val) (hk1 : (k 1).val = (y 1).val) :
    (iblk4 (F := Ideal) V c 0 t : Vec Ideal S5000x40 .f32) y = (V c main_v79 : S1700000x40.Idx → Elt Ideal .f32) k := by
  obtain ⟨e0, e1, -, -, -, -⟩ := index_maps4 t
  unfold iblk4
  show V c main_v79 (((cfg4.win 0).blk t).view.emb y) = V c main_v79 k
  refine congrArg _ (funext fun a => Fin.ext ?_)
  match a with
  | ⟨0, _⟩ => show win4_0.index t (0 : Fin 2) * 5000 + 1 * (y 0).val = (k 0).val; rw [e0, hk0]; omega
  | ⟨1, _⟩ => show win4_0.index t (1 : Fin 2) * 40 + 1 * (y 1).val = (k 1).val; rw [e1, hk1]; omega

/-- The block of edge weights at point `t` holds rows 5000·t … 5000·t + 4999 of the weight column. -/
theorem weights_block4 (c : Dev nD) (t : Fin cfg4.N) (y : S5000x1.Idx) (k : S1700000x1.Idx)
    (hk0 : (k 0).val = t.val * 5000 + (y 0).val) :
    (iblk4 (F := Ideal) V c 1 t : Vec Ideal S5000x1 .f32) y = (V c main_v80 : S1700000x1.Idx → Elt Ideal .f32) k := by
  obtain ⟨-, -, e0, e1, -, -⟩ := index_maps4 t
  unfold iblk4
  show V c main_v80 (((cfg4.win 1).blk t).view.emb y) = V c main_v80 k
  refine congrArg _ (funext fun a => Fin.ext ?_)
  match a with
  | ⟨0, _⟩ => show win4_1.index t (0 : Fin 2) * 5000 + 1 * (y 0).val = (k 0).val; rw [e0, hk0]; omega
  | ⟨1, _⟩ =>
    show win4_1.index t (1 : Fin 2) * 1 + 1 * (y 1).val = (k 1).val
    have hy : (y 1).val < 1 := (y 1).isLt
    have hk : (k 1).val < 1 := (k 1).isLt
    rw [e1]; omega

/-- One entry of the body's product against one entry of the host's, for blocks that hold the arrays' rows from row
    `tv * 5000` on: both are the gathered entry times the weight of its row. -/
theorem entry40 (x0 : FVec Ideal S5000x40 .f32) (x1 : FVec Ideal S5000x1 .f32) (g : FVec Ideal S1700000x40 .f32) (n : FVec Ideal S1700000x1 .f32)
    (tv : Nat) (j : S5000x40.Idx) (i : S1700000x40.Idx)
    (hi0 : (i 0).val = tv * 5000 + (j 0).val) (hi1 : (i 1).val = (j 1).val)
    (h0 : ∀ (y : S5000x40.Idx) (k : S1700000x40.Idx), (k 0).val = tv * 5000 + (y 0).val → (k 1).val = (y 1).val → x0 y = g k)
    (h1 : ∀ (y : S5000x1.Idx) (k : S1700000x1.Idx), (k 0).val = tv * 5000 + (y 0).val → x1 y = n k) :
    k4_pay1 (F := Ideal) x0 x1 j = scaled40 g n i := by
  obtain ⟨p, q, rfl⟩ : ∃ (p : Fin 5000) (q : Fin 40), j = ValueIdx.ix2 p q := ⟨j 0, j 1, ValueIdx.eq_ix2 j⟩
  obtain ⟨r, s, rfl⟩ : ∃ (r : Fin 1700000) (s : Fin 40), i = ValueIdx.ix2 r s := ⟨i 0, i 1, ValueIdx.eq_ix2 i⟩
  rw [body40_apply, scaled40_apply, h0 (ValueIdx.ix2 p q) (ValueIdx.ix2 r s) hi0 hi1,
    h1 (ValueIdx.ix2 p (⟨0, Nat.one_pos⟩ : Fin 1)) (ValueIdx.ix2 r (⟨0, Nat.one_pos⟩ : Fin 1)) hi0]

/-- What point `t` writes back is block `t` of the host's product of the two arrays. -/
theorem written_block4 (c : Dev nD) (t : Fin cfg4.N) :
    (dat4 (F := Ideal) V c).flushed 2 t = ((cfg4.win 2).blk t).view.read (Elt Ideal) (scaled40 (V c main_v79) (V c main_v80)) := by
  show (cfg4.win 2).cut (grid4.coords t) ((dat4 (F := Ideal) V c).after 2 t) = _
  rw [after4_2]
  unfold out4_2
  rw [View.canon_unit_zero offsets_zero]
  simp only [View.ld_unit_zero (S := S5000x40) offsets_zero, View.ld_unit_zero (S := S5000x1) offsets_zero]
  obtain ⟨-, -, -, -, e0, e1⟩ := index_maps4 t
  funext j
  show k4_pay1 (F := Ideal) (iblk4 V c 0 t) (iblk4 V c 1 t) j = scaled40 (V c main_v79) (V c main_v80) (((cfg4.win 2).blk t).view.emb j)
  refine entry40 _ _ _ _ t.val j _ ?_ ?_ (fun y k h0 h1 => rows_block4 V c t y k h0 h1) (fun y k h0 => weights_block4 V c t y k h0)
  · show win4_2.index t (0 : Fin 2) * 5000 + 1 * (j 0).val = t.val * 5000 + (j 0).val
    rw [e0]; omega
  · show win4_2.index t (1 : Fin 2) * 40 + 1 * (j 1).val = (j 1).val
    rw [e1]; omega

/-- An index of the array is in point `t`'s block iff each coordinate is in the block's range on its axis. -/
theorem mem_block4 (t : Fin cfg4.N) (i : S1700000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v81).slice (win4_2.rect t)).set ↔ _
  rw [View.set_slice_whole, Rect.mem_set_unit]
  exact Iff.rfl

/-- Every index of the array is in the block of a point that writes back: row `r` is in block `r / 5000`, since
    340 · 5000 = 1700000. -/
theorem rows_covered4 (i : S1700000x40.Idx) :
    ∃ t : Fin cfg4.N, (cfg4.win 2).flush t = true ∧ i ∈ ((cfg4.win 2).blk t).view.set := by
  have hi0 : (i 0).val < 1700000 := (i 0).isLt
  have hi1 : (i 1).val < 40 := (i 1).isLt
  have hN : cfg4.N = 340 := N_4
  let t : Fin cfg4.N := ⟨(i 0).val / 5000, by rw [hN]; omega⟩
  obtain ⟨-, -, -, -, e0, e1⟩ := index_maps4 t
  have ht : t.val = (i 0).val / 5000 := rfl
  refine ⟨t, flush4_2 t, ?_⟩
  rw [mem_block4]
  intro a
  match a with
  | ⟨0, _⟩ =>
    show win4_2.index t (0 : Fin 2) * 5000 ≤ (i 0).val ∧ (i 0).val < win4_2.index t (0 : Fin 2) * 5000 + 5000
    rw [e0, ht]; omega
  | ⟨1, _⟩ =>
    show win4_2.index t (1 : Fin 2) * 40 ≤ (i 1).val ∧ (i 1).val < win4_2.index t (1 : Fin 2) * 40 + 40
    rw [e1]; omega

/-- The scaled messages after their region (width 40): the host's product with the weight column broadcast along the feature axis. -/
theorem region4_value (c : Dev nD) :
    ((dat4 (F := Ideal) V c).arrAt 2 cfg4.N : FVec Ideal S1700000x40 .f32)
      = mulf (F := Ideal) (φ := .f32) (V c main_v79 : FVec Ideal S1700000x40 .f32) (broadcastInDim (α := Ideal .f32) Cert.ReferenceIdeal.S1700000x40 ![0, 1] Cert.ReferenceIdeal.Gen.bcast_S1700000x1_S1700000x40_0_1 (V c main_v80 : FVec Ideal S1700000x1 .f32)) := by
  show (dat4 (F := Ideal) V c).arrAt 2 cfg4.N = _
  exact (dat4 (F := Ideal) V c).arrAt_eq_of_cover 2 (scaled40 (V c main_v79) (V c main_v80)) (fun t _ => written_block4 V c t) rows_covered4

end Cert.KernelIdeal.Hand

end
-- ==== Proof.RegionBias.lean ====
import proofs.«108383_j15479062135311_1_alg».proof.Proof.Gen.KernelIdeal.Frame
import proofs.«108383_j15479062135311_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The zero offsets of a whole-buffer access, rank 2 and rank 1. -/
theorem zeroOffsets2 : (![0, 0] : Fin 2 → Nat) = fun _ => 0 := funext fun a => by fin_cases a <;> rfl
theorem zeroOffsets1 : (![0] : Fin 1 → Nat) = fun _ => 0 := funext fun a => by fin_cases a <;> rfl

/-! ## Region 2: the bias row added to every row and the maximum with the zero array

The output array has 100000 rows of 128 entries, cut into 10 blocks of 10000 rows; grid point `t` holds rows
`10000·t … 10000·t + 9999`. The bias is one block, the whole `[128]` array, at every point. -/

/-- The host's whole-array function of the region's two inputs: the bias row added to every row and the maximum with the zero array. -/
abbrev biasMax (x : FVec Ideal S100000x128 .f32) (b : FVec Ideal S128 .f32) : FVec Ideal S100000x128 .f32 :=
  maximumf (F := Ideal) (φ := .f32) (addf (F := Ideal) (φ := .f32) x (broadcastInDim (α := Ideal .f32) Cert.ReferenceIdeal.S100000x128 ![0, 1] Cert.ReferenceIdeal.Gen.bcast_S1x128_S100000x128_0_1 (broadcastInDim (α := Ideal .f32) Cert.ReferenceIdeal.S1x128 ![1] Cert.ReferenceIdeal.Gen.bcast_S128_S1x128_1 b)))
    (broadcastInDim (α := Ideal .f32) Cert.ReferenceIdeal.S100000x128 ![] Cert.ReferenceIdeal.Gen.bcast_S_S100000x128 (constant (F := Ideal) Cert.ReferenceIdeal.S_ .f32 0x00000000#32))

/-- Entry `(r, q)` of the host's function is the maximum of `x (r, q) + b q` and the zero word's value: the bias, first made a `[1, 128]` row and
    then repeated down the rows, reads `b q` at every row; the broadcast zero constant reads its word everywhere. -/
theorem biasMax_apply (x : FVec Ideal S100000x128 .f32) (b : FVec Ideal S128 .f32) (r : Fin 100000) (q : Fin 128) :
    biasMax x b (ValueIdx.ix2 r q) = FloatOps.maximumf (FloatOps.addf (x (ValueIdx.ix2 r q)) (b (ValueIdx.ix1 q))) (FloatOps.ofBits .f32 0x00000000#32) := by
  show FloatOps.maximumf (FloatOps.addf (x (ValueIdx.ix2 r q)) (broadcastInDim (α := Ideal .f32) Cert.ReferenceIdeal.S100000x128 ![0, 1] Cert.ReferenceIdeal.Gen.bcast_S1x128_S100000x128_0_1 (broadcastInDim (α := Ideal .f32) Cert.ReferenceIdeal.S1x128 ![1] Cert.ReferenceIdeal.Gen.bcast_S128_S1x128_1 b) (ValueIdx.ix2 r q)))
    (broadcastInDim (α := Ideal .f32) Cert.ReferenceIdeal.S100000x128 ![] Cert.ReferenceIdeal.Gen.bcast_S_S100000x128 (constant (F := Ideal) Cert.ReferenceIdeal.S_ .f32 0x00000000#32) (ValueIdx.ix2 r q)) = _
  have hrow : broadcastInDim (α := Ideal .f32) Cert.ReferenceIdeal.S100000x128 ![0, 1] Cert.ReferenceIdeal.Gen.bcast_S1x128_S100000x128_0_1 (broadcastInDim (α := Ideal .f32) Cert.ReferenceIdeal.S1x128 ![1] Cert.ReferenceIdeal.Gen.bcast_S128_S1x128_1 b) (ValueIdx.ix2 r q) = b (ValueIdx.ix1 q) := by
    refine (broadcastInDim_apply _ Cert.ReferenceIdeal.Gen.bcast_S1x128_S100000x128_0_1 _ (ValueIdx.ix2 r q) (ValueIdx.ix2 ⟨0, Nat.one_pos⟩ q) (fun a => match a with
      | ⟨0, _⟩ => by show 0 = if (1 : Nat) = 1 then 0 else r.val; rw [if_pos rfl]
      | ⟨1, _⟩ => by show q.val = if (128 : Nat) = 1 then 0 else q.val; rw [if_neg (by decide)])).trans ?_
    exact broadcastInDim_apply _ Cert.ReferenceIdeal.Gen.bcast_S128_S1x128_1 b (ValueIdx.ix2 ⟨0, Nat.one_pos⟩ q) (ValueIdx.ix1 q) (fun a => match a with
      | ⟨0, _⟩ => by show q.val = if (128 : Nat) = 1 then 0 else q.val; rw [if_neg (by decide)])
  have hzero : broadcastInDim (α := Ideal .f32) Cert.ReferenceIdeal.S100000x128 ![] Cert.ReferenceIdeal.Gen.bcast_S_S100000x128 (constant (F := Ideal) Cert.ReferenceIdeal.S_ .f32 0x00000000#32) (ValueIdx.ix2 r q) = FloatOps.ofBits .f32 0x00000000#32 :=
    broadcastInDim_apply _ Cert.ReferenceIdeal.Gen.bcast_S_S100000x128 _ (ValueIdx.ix2 r q) (fun a => a.elim0) (fun a => a.elim0)
  rw [hrow, hzero]

/-- Entry `(p, q)` of the body's result on a block `x0` of 10000 rows and the bias block `x1`: the same formula.
    The cast of the block to its own shape is the identity; the bias cast to `[1, 128]` (same row-major position) and
    repeated down the 10000 rows reads `x1 q`; the splat zero reads its word. -/
theorem k2_pay1_apply (x0 : Vec Ideal S10000x128 .f32) (x1 : Vec Ideal S128 .f32) (p : Fin 10000) (q : Fin 128) :
    k2_pay1 x0 x1 (ValueIdx.ix2 p q) = FloatOps.maximumf (FloatOps.addf (x0 (ValueIdx.ix2 p q)) (x1 (ValueIdx.ix1 q))) (FloatOps.ofBits .f32 0x00000000#32) := by
  unfold k2_pay1
  show FloatOps.maximumf (FloatOps.addf (shapeCast S10000x128 (x0 : FVec Ideal S10000x128 .f32) shapeCasts_S10000x128_S10000x128 (ValueIdx.ix2 p q)) (broadcastTo S10000x128 (shapeCast S1x128 (x1 : FVec Ideal S128 .f32) shapeCasts_S128_S1x128) broadcasts_S1x128_S10000x128 (ValueIdx.ix2 p q))) (Scalar.ofBits (F := Ideal) .f32 0x00000000#32) = _
  have hself : shapeCast S10000x128 (x0 : FVec Ideal S10000x128 .f32) shapeCasts_S10000x128_S10000x128 (ValueIdx.ix2 p q) = x0 (ValueIdx.ix2 p q) := by rw [shapeCast_self]
  have hrow : broadcastTo S10000x128 (shapeCast S1x128 (x1 : FVec Ideal S128 .f32) shapeCasts_S128_S1x128) broadcasts_S1x128_S10000x128 (ValueIdx.ix2 p q) = x1 (ValueIdx.ix1 q) := by
    refine (broadcastTo_apply _ broadcasts_S1x128_S10000x128 (ValueIdx.ix2 p q) (ValueIdx.ix2 ⟨0, Nat.one_pos⟩ q) (fun a => match a with
      | ⟨0, _⟩ => by show 0 = if (1 : Nat) = 1 then 0 else p.val; rw [if_pos rfl]
      | ⟨1, _⟩ => by show q.val = if (128 : Nat) = 1 then 0 else q.val; rw [if_neg (by decide)])).trans ?_
    exact shapeCast_apply (x1 : FVec Ideal S128 .f32) shapeCasts_S128_S1x128 (ValueIdx.ix2 ⟨0, Nat.one_pos⟩ q) (ValueIdx.ix1 q) (by
      rw [Shape.rowMajor_val_one, Shape.rowMajor_val_two]; show q.val = 0 * 128 + q.val; omega)
  rw [hself, hrow]

/-- One entry, block against array: if the row block agrees with the array `X` at row `r` and the bias block with `B`
    at `q`, the body's entry `(p, q)` is the host function's entry `(r, q)`. -/
theorem entry2 (x0 : Vec Ideal S10000x128 .f32) (x1 : Vec Ideal S128 .f32) (X : FVec Ideal S100000x128 .f32) (B : FVec Ideal S128 .f32)
    (p : Fin 10000) (q : Fin 128) (r : Fin 100000)
    (h0 : x0 (ValueIdx.ix2 p q) = X (ValueIdx.ix2 r q)) (h1 : x1 (ValueIdx.ix1 q) = B (ValueIdx.ix1 q)) :
    k2_pay1 x0 x1 (ValueIdx.ix2 p q) = biasMax X B (ValueIdx.ix2 r q) := by
  rw [k2_pay1_apply, biasMax_apply, h0, h1]

/-- The index maps over the 10 grid points: the row-block windows (input 0 and the output) sit at block `(t, 0)`,
    the bias window at block `0`. -/
theorem blockIndex2 : ∀ t : Fin cfg2.N, win2_2.index t (0 : Fin 2) = t.val ∧ win2_2.index t (1 : Fin 2) = 0
    ∧ win2_0.index t (0 : Fin 2) = t.val ∧ win2_0.index t (1 : Fin 2) = 0 ∧ win2_1.index t (0 : Fin 1) = 0 :=
  (by decide +kernel : ∀ t : Fin grid2.N, _)

/-- What point `t` writes back is block `t` of the host's function of the two input arrays: entry `(p, q)` of the
    block is array entry `(10000·t + p, q)` (block index × block size + position inside the block, on each axis), the
    input row block is read at the same rows, and the bias block is the whole bias. -/
theorem writeback2_eq (c : Dev nD) (t : Fin cfg2.N) :
    (dat2 (F := Ideal) V c).flushed 2 t = ((cfg2.win 2).blk t).view.read (Elt Ideal) (biasMax (V c main_v43) (V c main_arg3)) := by
  show (cfg2.win 2).cut (grid2.coords t) ((dat2 (F := Ideal) V c).after 2 t) = _
  rw [after2_2]
  unfold out2_2
  rw [View.canon_unit_zero zeroOffsets2]
  simp only [View.ld_unit_zero (S := S10000x128) zeroOffsets2, View.ld_unit_zero (S := S128) zeroOffsets1]
  obtain ⟨e0, e1, e2, e3, e4⟩ := blockIndex2 t
  have ht : t.val < 10 := by have h := t.isLt; have e : cfg2.N = 10 := N_2; omega
  funext j
  obtain ⟨p, q, rfl⟩ : ∃ (p : Fin 10000) (q : Fin 128), j = ValueIdx.ix2 p q := ⟨j 0, j 1, ValueIdx.eq_ix2 (n0 := 10000) (n1 := 128) j⟩
  have hemb : ((cfg2.win 2).blk t).view.emb (ValueIdx.ix2 p q) = ValueIdx.ix2 (n0 := 100000) (n1 := 128) ⟨t.val * 10000 + p.val, by have := p.isLt; omega⟩ q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  show k2_pay1 (iblk2 V c 0 t) (iblk2 V c 1 t) (ValueIdx.ix2 p q) = biasMax (V c main_v43) (V c main_arg3) (((cfg2.win 2).blk t).view.emb (ValueIdx.ix2 p q))
  rw [hemb]
  refine entry2 _ _ _ _ p q _ ?_ ?_
  · show V c main_v43 (((cfg2.win 0).blk t).view.emb (ValueIdx.ix2 p q)) = V c main_v43 _
    refine congrArg (V c main_v43) ?_
    funext a; apply Fin.ext
    match a with
    | ⟨0, _⟩ => show win2_0.index t (0 : Fin 2) * 10000 + 1 * p.val = t.val * 10000 + p.val; omega
    | ⟨1, _⟩ => show win2_0.index t (1 : Fin 2) * 128 + 1 * q.val = q.val; omega
  · show V c main_arg3 (((cfg2.win 1).blk t).view.emb (ValueIdx.ix1 q)) = V c main_arg3 _
    refine congrArg (V c main_arg3) ?_
    funext a; apply Fin.ext
    match a with
    | ⟨0, _⟩ => show win2_1.index t (0 : Fin 1) * 128 + 1 * q.val = q.val; omega

/-- An array index is in point `t`'s output block iff each coordinate is in the block's range on its axis. -/
theorem mem_block2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v44).slice (win2_2.rect t)).set ↔ _
  rw [View.set_slice_whole, Rect.mem_set_unit]
  exact Iff.rfl

/-- Every array index is in some point's output block, and every point writes back: row `r` is in block `r / 10000`. -/
theorem rows_covered2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by omega⟩, rfl⟩
  obtain ⟨e0, e1, -⟩ := blockIndex2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The first layer's output after its region: the bias row added to every row, then the maximum with zero — the host's add of the broadcast bias and its maximum with the zero array. -/
theorem region2_value (c : Dev nD) :
    ((dat2 (F := Ideal) V c).arrAt 2 cfg2.N : FVec Ideal S100000x128 .f32)
      = maximumf (F := Ideal) (φ := .f32) (addf (F := Ideal) (φ := .f32) (V c main_v43 : FVec Ideal S100000x128 .f32) (broadcastInDim (α := Ideal .f32) Cert.ReferenceIdeal.S100000x128 ![0, 1] Cert.ReferenceIdeal.Gen.bcast_S1x128_S100000x128_0_1 (broadcastInDim (α := Ideal .f32) Cert.ReferenceIdeal.S1x128 ![1] Cert.ReferenceIdeal.Gen.bcast_S128_S1x128_1 (V c main_arg3 : FVec Ideal S128 .f32))))
          (broadcastInDim (α := Ideal .f32) Cert.ReferenceIdeal.S100000x128 ![] Cert.ReferenceIdeal.Gen.bcast_S_S100000x128 (constant (F := Ideal) Cert.ReferenceIdeal.S_ .f32 0x00000000#32)) := by
  show (dat2 (F := Ideal) V c).arrAt 2 cfg2.N = biasMax (V c main_v43) (V c main_arg3)
  exact (dat2 (F := Ideal) V c).arrAt_eq_of_cover 2 (biasMax (V c main_v43) (V c main_arg3)) (fun t _ => writeback2_eq V c t) rows_covered2

/-! ## Region 5: the bias row added to every row

The output array has 100000 rows of 40 entries, cut into 10 blocks of 10000 rows; grid point `t` holds rows
`10000·t … 10000·t + 9999`. The bias is one block, the whole `[40]` array, at every point. -/

/-- The host's whole-array function of the region's two inputs: the bias row added to every row. -/
abbrev biasAdd (x : FVec Ideal S100000x40 .f32) (b : FVec Ideal S40 .f32) : FVec Ideal S100000x40 .f32 :=
  addf (F := Ideal) (φ := .f32) x (broadcastInDim (α := Ideal .f32) Cert.ReferenceIdeal.S100000x40 ![0, 1] Cert.ReferenceIdeal.Gen.bcast_S1x40_S100000x40_0_1 (broadcastInDim (α := Ideal .f32) Cert.ReferenceIdeal.S1x40 ![1] Cert.ReferenceIdeal.Gen.bcast_S40_S1x40_1 b))

/-- Entry `(r, q)` of the host's function is `x (r, q) + b q`: the bias, first made a `[1, 40]` row and
    then repeated down the rows, reads `b q` at every row. -/
theorem biasAdd_apply (x : FVec Ideal S100000x40 .f32) (b : FVec Ideal S40 .f32) (r : Fin 100000) (q : Fin 40) :
    biasAdd x b (ValueIdx.ix2 r q) = FloatOps.addf (x (ValueIdx.ix2 r q)) (b (ValueIdx.ix1 q)) := by
  show FloatOps.addf (x (ValueIdx.ix2 r q)) (broadcastInDim (α := Ideal .f32) Cert.ReferenceIdeal.S100000x40 ![0, 1] Cert.ReferenceIdeal.Gen.bcast_S1x40_S100000x40_0_1 (broadcastInDim (α := Ideal .f32) Cert.ReferenceIdeal.S1x40 ![1] Cert.ReferenceIdeal.Gen.bcast_S40_S1x40_1 b) (ValueIdx.ix2 r q)) = _
  have hrow : broadcastInDim (α := Ideal .f32) Cert.ReferenceIdeal.S100000x40 ![0, 1] Cert.ReferenceIdeal.Gen.bcast_S1x40_S100000x40_0_1 (broadcastInDim (α := Ideal .f32) Cert.ReferenceIdeal.S1x40 ![1] Cert.ReferenceIdeal.Gen.bcast_S40_S1x40_1 b) (ValueIdx.ix2 r q) = b (ValueIdx.ix1 q) := by
    refine (broadcastInDim_apply _ Cert.ReferenceIdeal.Gen.bcast_S1x40_S100000x40_0_1 _ (ValueIdx.ix2 r q) (ValueIdx.ix2 ⟨0, Nat.one_pos⟩ q) (fun a => match a with
      | ⟨0, _⟩ => by show 0 = if (1 : Nat) = 1 then 0 else r.val; rw [if_pos rfl]
      | ⟨1, _⟩ => by show q.val = if (40 : Nat) = 1 then 0 else q.val; rw [if_neg (by decide)])).trans ?_
    exact broadcastInDim_apply _ Cert.ReferenceIdeal.Gen.bcast_S40_S1x40_1 b (ValueIdx.ix2 ⟨0, Nat.one_pos⟩ q) (ValueIdx.ix1 q) (fun a => match a with
      | ⟨0, _⟩ => by show q.val = if (40 : Nat) = 1 then 0 else q.val; rw [if_neg (by decide)])
  rw [hrow]

/-- Entry `(p, q)` of the body's result on a block `x0` of 10000 rows and the bias block `x1`: the same formula.
    The cast of the block to its own shape is the identity; the bias cast to `[1, 40]` (same row-major position) and
    repeated down the 10000 rows reads `x1 q`. -/
theorem k5_pay1_apply (x0 : Vec Ideal S10000x40 .f32) (x1 : Vec Ideal S40 .f32) (p : Fin 10000) (q : Fin 40) :
    k5_pay1 x0 x1 (ValueIdx.ix2 p q) = FloatOps.addf (x0 (ValueIdx.ix2 p q)) (x1 (ValueIdx.ix1 q)) := by
  unfold k5_pay1
  show FloatOps.addf (F := Ideal) (φ := .f32) (shapeCast S10000x40 (x0 : FVec Ideal S10000x40 .f32) shapeCasts_S10000x40_S10000x40 (ValueIdx.ix2 p q)) (broadcastTo S10000x40 (shapeCast S1x40 (x1 : FVec Ideal S40 .f32) shapeCasts_S40_S1x40) broadcasts_S1x40_S10000x40 (ValueIdx.ix2 p q)) = _
  have hself : shapeCast S10000x40 (x0 : FVec Ideal S10000x40 .f32) shapeCasts_S10000x40_S10000x40 (ValueIdx.ix2 p q) = x0 (ValueIdx.ix2 p q) := by rw [shapeCast_self]
  have hrow : broadcastTo S10000x40 (shapeCast S1x40 (x1 : FVec Ideal S40 .f32) shapeCasts_S40_S1x40) broadcasts_S1x40_S10000x40 (ValueIdx.ix2 p q) = x1 (ValueIdx.ix1 q) := by
    refine (broadcastTo_apply _ broadcasts_S1x40_S10000x40 (ValueIdx.ix2 p q) (ValueIdx.ix2 ⟨0, Nat.one_pos⟩ q) (fun a => match a with
      | ⟨0, _⟩ => by show 0 = if (1 : Nat) = 1 then 0 else p.val; rw [if_pos rfl]
      | ⟨1, _⟩ => by show q.val = if (40 : Nat) = 1 then 0 else q.val; rw [if_neg (by decide)])).trans ?_
    exact shapeCast_apply (x1 : FVec Ideal S40 .f32) shapeCasts_S40_S1x40 (ValueIdx.ix2 ⟨0, Nat.one_pos⟩ q) (ValueIdx.ix1 q) (by
      rw [Shape.rowMajor_val_one, Shape.rowMajor_val_two]; show q.val = 0 * 40 + q.val; omega)
  rw [hself, hrow]

/-- One entry, block against array: if the row block agrees with the array `X` at row `r` and the bias block with `B`
    at `q`, the body's entry `(p, q)` is the host function's entry `(r, q)`. -/
theorem entry5 (x0 : Vec Ideal S10000x40 .f32) (x1 : Vec Ideal S40 .f32) (X : FVec Ideal S100000x40 .f32) (B : FVec Ideal S40 .f32)
    (p : Fin 10000) (q : Fin 40) (r : Fin 100000)
    (h0 : x0 (ValueIdx.ix2 p q) = X (ValueIdx.ix2 r q)) (h1 : x1 (ValueIdx.ix1 q) = B (ValueIdx.ix1 q)) :
    k5_pay1 x0 x1 (ValueIdx.ix2 p q) = biasAdd X B (ValueIdx.ix2 r q) := by
  rw [k5_pay1_apply, biasAdd_apply, h0, h1]

/-- The index maps over the 10 grid points: the row-block windows (input 0 and the output) sit at block `(t, 0)`,
    the bias window at block `0`. -/
theorem blockIndex5 : ∀ t : Fin cfg5.N, win5_2.index t (0 : Fin 2) = t.val ∧ win5_2.index t (1 : Fin 2) = 0
    ∧ win5_0.index t (0 : Fin 2) = t.val ∧ win5_0.index t (1 : Fin 2) = 0 ∧ win5_1.index t (0 : Fin 1) = 0 :=
  (by decide +kernel : ∀ t : Fin grid5.N, _)

/-- What point `t` writes back is block `t` of the host's function of the two input arrays: entry `(p, q)` of the
    block is array entry `(10000·t + p, q)` (block index × block size + position inside the block, on each axis), the
    input row block is read at the same rows, and the bias block is the whole bias. -/
theorem writeback5_eq (c : Dev nD) (t : Fin cfg5.N) :
    (dat5 (F := Ideal) V c).flushed 2 t = ((cfg5.win 2).blk t).view.read (Elt Ideal) (biasAdd (V c main_v84) (V c main_arg5)) := by
  show (cfg5.win 2).cut (grid5.coords t) ((dat5 (F := Ideal) V c).after 2 t) = _
  rw [after5_2]
  unfold out5_2
  rw [View.canon_unit_zero zeroOffsets2]
  simp only [View.ld_unit_zero (S := S10000x40) zeroOffsets2, View.ld_unit_zero (S := S40) zeroOffsets1]
  obtain ⟨e0, e1, e2, e3, e4⟩ := blockIndex5 t
  have ht : t.val < 10 := by have h := t.isLt; have e : cfg5.N = 10 := N_5; omega
  funext j
  obtain ⟨p, q, rfl⟩ : ∃ (p : Fin 10000) (q : Fin 40), j = ValueIdx.ix2 p q := ⟨j 0, j 1, ValueIdx.eq_ix2 (n0 := 10000) (n1 := 40) j⟩
  have hemb : ((cfg5.win 2).blk t).view.emb (ValueIdx.ix2 p q) = ValueIdx.ix2 (n0 := 100000) (n1 := 40) ⟨t.val * 10000 + p.val, by have := p.isLt; omega⟩ q := by
    funext a; apply Fin.ext
    match a with
    | ⟨0, _⟩ => show win5_2.index t (0 : Fin 2) * 10000 + 1 * p.val = t.val * 10000 + p.val; omega
    | ⟨1, _⟩ => show win5_2.index t (1 : Fin 2) * 40 + 1 * q.val = q.val; omega
  show k5_pay1 (iblk5 V c 0 t) (iblk5 V c 1 t) (ValueIdx.ix2 p q) = biasAdd (V c main_v84) (V c main_arg5) (((cfg5.win 2).blk t).view.emb (ValueIdx.ix2 p q))
  rw [hemb]
  refine entry5 _ _ _ _ p q _ ?_ ?_
  · show V c main_v84 (((cfg5.win 0).blk t).view.emb (ValueIdx.ix2 p q)) = V c main_v84 _
    refine congrArg (V c main_v84) ?_
    funext a; apply Fin.ext
    match a with
    | ⟨0, _⟩ => show win5_0.index t (0 : Fin 2) * 10000 + 1 * p.val = t.val * 10000 + p.val; omega
    | ⟨1, _⟩ => show win5_0.index t (1 : Fin 2) * 40 + 1 * q.val = q.val; omega
  · show V c main_arg5 (((cfg5.win 1).blk t).view.emb (ValueIdx.ix1 q)) = V c main_arg5 _
    refine congrArg (V c main_arg5) ?_
    funext a; apply Fin.ext
    match a with
    | ⟨0, _⟩ => show win5_1.index t (0 : Fin 1) * 40 + 1 * q.val = q.val; omega

/-- An array index is in point `t`'s output block iff each coordinate is in the block's range on its axis. -/
theorem mem_block5 (t : Fin cfg5.N) (i : S100000x40.Idx) :
    i ∈ ((cfg5.win 2).blk t).view.set ↔ ∀ a : Fin 2, win5_2.index t a * S10000x40.size a ≤ (i a).val ∧ (i a).val < win5_2.index t a * S10000x40.size a + S10000x40.size a := by
  show i ∈ ((View.whole main_v85).slice (win5_2.rect t)).set ↔ _
  rw [View.set_slice_whole, Rect.mem_set_unit]
  exact Iff.rfl

/-- Every array index is in some point's output block, and every point writes back: row `r` is in block `r / 10000`. -/
theorem rows_covered5 (i : S100000x40.Idx) : ∃ t : Fin cfg5.N, (cfg5.win 2).flush t = true ∧ i ∈ ((cfg5.win 2).blk t).view.set := by
  have hi0 : (i 0).val < 100000 := (i 0).isLt
  have hi1 : (i 1).val < 40 := (i 1).isLt
  have hN : cfg5.N = 10 := N_5
  obtain ⟨t, ht⟩ : ∃ t : Fin cfg5.N, t.val = (i 0).val / 10000 := ⟨⟨(i 0).val / 10000, by omega⟩, rfl⟩
  obtain ⟨e0, e1, -⟩ := blockIndex5 t
  refine ⟨t, flush5_2 t, ?_⟩
  rw [mem_block5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 40 ≤ (i 1).val ∧ (i 1).val < win5_2.index t (1 : Fin 2) * 40 + 40; omega

/-- The second layer's output after its region: the bias row added to every row — the host's add of the broadcast bias. -/
theorem region5_value (c : Dev nD) :
    ((dat5 (F := Ideal) V c).arrAt 2 cfg5.N : FVec Ideal S100000x40 .f32)
      = addf (F := Ideal) (φ := .f32) (V c main_v84 : FVec Ideal S100000x40 .f32) (broadcastInDim (α := Ideal .f32) Cert.ReferenceIdeal.S100000x40 ![0, 1] Cert.ReferenceIdeal.Gen.bcast_S1x40_S100000x40_0_1 (broadcastInDim (α := Ideal .f32) Cert.ReferenceIdeal.S1x40 ![1] Cert.ReferenceIdeal.Gen.bcast_S40_S1x40_1 (V c main_arg5 : FVec Ideal S40 .f32))) := by
  show (dat5 (F := Ideal) V c).arrAt 2 cfg5.N = biasAdd (V c main_v84) (V c main_arg5)
  exact (dat5 (F := Ideal) V c).arrAt_eq_of_cover 2 (biasAdd (V c main_v84) (V c main_arg5)) (fun t _ => writeback5_eq V c t) rows_covered5

end Cert.KernelIdeal.Hand

end
-- ==== Proof.KernelChain.lean ====
/-
  The kernel program's buffers, boundary by boundary, as the reference's stages.

  @main is ten stretches of host operations and six kernel regions. Every value it computes is a function of the
  six argument arrays only, and — read on the extended reals — the same function the reference computes at the
  matching stage: the integer side (source and target lists with the self loops appended, the wrapped gather
  indices), the degree by scatter-add of ones, its inverse square root where positive, the edge weight as the
  product of the two gathered inverse roots, and then per layer the product with the weights (a kernel region:
  the host's `dot_general`), the gathered rows, their scaling by the edge weight (a kernel region: the host's
  product with the weight column broadcast along the features), the scatter-add over the target list, and the
  bias epilogue (a kernel region: the host's add of the broadcast bias, followed in the first layer by the maximum
  with zero).  Each lemma below carries the values of the buffers still to be read across ONE stretch or ONE
  region; the kernel regions' whole-array values are the three sibling modules'.
-/
import proofs.«108383_j15479062135311_1_alg».proof.Proof.Gen.KernelIdeal.Frame
import proofs.«108383_j15479062135311_1_alg».proof.Proof.RegionDot
import proofs.«108383_j15479062135311_1_alg».proof.Proof.RegionScale
import proofs.«108383_j15479062135311_1_alg».proof.Proof.RegionBias
import proofs.«108383_j15479062135311_1_alg».proof.Proof.RefReadP
import proofs.«108383_j15479062135311_1_alg».proof.Proof.KernelRun
import Idealize.ShloMosaic.Lib.StableHlo.Run
import Idealize.ShloMosaic.Lib.Pipeline.Value
import Idealize.ShloMosaic.PureOps.Ideal

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Cert.ReferenceIdeal.ReadP

/-! ## A column is a column: the reshape [n] → [n, 1] is the broadcast along axis 0 -/

/-- Entry (e, 0) of either is entry e of the vector. -/
theorem column_eq {α : Type} (y : S1700000.Idx → α) (h : S1700000.ShapeCasts S1700000x1)
    (hb : S1700000.BroadcastsInDim S1700000x1 (![0] : Fin 1 → Fin S1700000x1.rank)) :
    shapeCast S1700000x1 y h = broadcastInDim S1700000x1 ![0] hb y := by
  funext j
  have hj1 : (j 1).val = 0 := by have := (j 1).isLt; simp at this; omega
  let k : S1700000.Idx := fun a => match a with
    | ⟨0, _⟩ => ⟨(j 0).val, (j 0).isLt⟩
  rw [shapeCast_apply y h j k (by
      rw [Shape.rowMajor_val_one, Shape.rowMajor_val_two]
      show (j 0).val = (j 0).val * 1 + (j 1).val
      omega),
    broadcastInDim_apply ![0] hb y j k (fun a => by
      match a with
      | ⟨0, _⟩ => show (j 0).val = if (1700000 : Nat) = 1 then 0 else (j 0).val; rw [if_neg (by decide)])]

/-! ## The host stretches, over any contents `W` at the stretch's entry -/

section Host

variable {F : FTy → Type} [FloatOps F]
variable (x0 : (⟨S100000x128, .f32⟩ : BufTy).Contents (Elt F)) (x1 : (⟨S2x1600000, .i32⟩ : BufTy).Contents (Elt F)) (x2 : (⟨S128x128, .f32⟩ : BufTy).Contents (Elt F))
  (x3 : (⟨S128, .f32⟩ : BufTy).Contents (Elt F)) (x4 : (⟨S128x40, .f32⟩ : BufTy).Contents (Elt F)) (x5 : (⟨S40, .f32⟩ : BufTy).Contents (Elt F))
variable (W : Valuation τ sig (Elt F))

/-- At launch: the six arguments. -/
structure AtLaunch : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5

/-- At the first product's entry: the source and target lists (plain and with self loops) and the edge weights. -/
structure AtDot1 : Prop where
  a0 : W (Proc.devRef .tc main_arg0) = x0
  a2 : W (Proc.devRef .tc main_arg2) = x2
  a3 : W (Proc.devRef .tc main_arg3) = x3
  a4 : W (Proc.devRef .tc main_arg4) = x4
  a5 : W (Proc.devRef .tc main_arg5) = x5
  v1 : W (Proc.devRef .tc main_v1) = val_main_v1 (F := F) x1
  v3 : W (Proc.devRef .tc main_v3) = val_main_v3 (F := F) x1
  v5 : W (Proc.devRef .tc main_v5) = val_main_v5 (F := F) x1
  v6 : W (Proc.devRef .tc main_v6) = val_main_v6 (F := F) x1
  v30 : W (Proc.devRef .tc main_v30) = val_main_v29 (F := F) x1

/-- After the first product. -/
structure AfterDot1 : Prop where
  a3 : W (Proc.devRef .tc main_arg3) = x3
  a4 : W (Proc.devRef .tc main_arg4) = x4
  a5 : W (Proc.devRef .tc main_arg5) = x5
  v1 : W (Proc.devRef .tc main_v1) = val_main_v1 (F := F) x1
  v3 : W (Proc.devRef .tc main_v3) = val_main_v3 (F := F) x1
  v5 : W (Proc.devRef .tc main_v5) = val_main_v5 (F := F) x1
  v6 : W (Proc.devRef .tc main_v6) = val_main_v6 (F := F) x1
  v30 : W (Proc.devRef .tc main_v30) = val_main_v29 (F := F) x1
  v31 : W (Proc.devRef .tc main_v31) = val_main_v30 (F := F) x0 x2

/-- At the first scaling's entry: the gathered rows and the weight column. -/
structure AtScale1 : Prop where
  a3 : W (Proc.devRef .tc main_arg3) = x3
  a4 : W (Proc.devRef .tc main_arg4) = x4
  a5 : W (Proc.devRef .tc main_arg5) = x5
  v1 : W (Proc.devRef .tc main_v1) = val_main_v1 (F := F) x1
  v3 : W (Proc.devRef .tc main_v3) = val_main_v3 (F := F) x1
  v6 : W (Proc.devRef .tc main_v6) = val_main_v6 (F := F) x1
  v38 : W (Proc.devRef .tc main_v38) = val_main_v37 (F := F) x0 x1 x2
  v39 : W (Proc.devRef .tc main_v39) = val_main_v38 (F := F) x1

/-- After the first scaling: the messages. -/
structure AfterScale1 : Prop where
  a3 : W (Proc.devRef .tc main_arg3) = x3
  a4 : W (Proc.devRef .tc main_arg4) = x4
  a5 : W (Proc.devRef .tc main_arg5) = x5
  v1 : W (Proc.devRef .tc main_v1) = val_main_v1 (F := F) x1
  v3 : W (Proc.devRef .tc main_v3) = val_main_v3 (F := F) x1
  v6 : W (Proc.devRef .tc main_v6) = val_main_v6 (F := F) x1
  v40 : W (Proc.devRef .tc main_v40) = val_main_v40 (F := F) x0 x1 x2

/-- At the first epilogue's entry: the aggregated messages. -/
structure AtBias1 : Prop where
  a3 : W (Proc.devRef .tc main_arg3) = x3
  a4 : W (Proc.devRef .tc main_arg4) = x4
  a5 : W (Proc.devRef .tc main_arg5) = x5
  v1 : W (Proc.devRef .tc main_v1) = val_main_v1 (F := F) x1
  v3 : W (Proc.devRef .tc main_v3) = val_main_v3 (F := F) x1
  v43 : W (Proc.devRef .tc main_v43) = val_main_v43 (F := F) x0 x1 x2

/-- After the first epilogue: the hidden layer. -/
structure AfterBias1 : Prop where
  a4 : W (Proc.devRef .tc main_arg4) = x4
  a5 : W (Proc.devRef .tc main_arg5) = x5
  v1 : W (Proc.devRef .tc main_v1) = val_main_v1 (F := F) x1
  v3 : W (Proc.devRef .tc main_v3) = val_main_v3 (F := F) x1
  v44 : W (Proc.devRef .tc main_v44) = val_main_v47 (F := F) x0 x1 x2 x3

/-- At the second product's entry: the lists and edge weights, computed again. -/
structure AtDot2 : Prop where
  a4 : W (Proc.devRef .tc main_arg4) = x4
  a5 : W (Proc.devRef .tc main_arg5) = x5
  v44 : W (Proc.devRef .tc main_v44) = val_main_v47 (F := F) x0 x1 x2 x3
  v46 : W (Proc.devRef .tc main_v46) = val_main_v49 (F := F) x1
  v47 : W (Proc.devRef .tc main_v47) = val_main_v50 (F := F) x1
  v71 : W (Proc.devRef .tc main_v71) = val_main_v73 (F := F) x1

/-- After the second product. -/
structure AfterDot2 : Prop where
  a5 : W (Proc.devRef .tc main_arg5) = x5
  v44 : W (Proc.devRef .tc main_v44) = val_main_v47 (F := F) x0 x1 x2 x3
  v46 : W (Proc.devRef .tc main_v46) = val_main_v49 (F := F) x1
  v47 : W (Proc.devRef .tc main_v47) = val_main_v50 (F := F) x1
  v71 : W (Proc.devRef .tc main_v71) = val_main_v73 (F := F) x1
  v72 : W (Proc.devRef .tc main_v72) = val_main_v74 (F := F) x0 x1 x2 x3 x4

/-- At the second scaling's entry. -/
structure AtScale2 : Prop where
  a5 : W (Proc.devRef .tc main_arg5) = x5
  v44 : W (Proc.devRef .tc main_v44) = val_main_v47 (F := F) x0 x1 x2 x3
  v47 : W (Proc.devRef .tc main_v47) = val_main_v50 (F := F) x1
  v79 : W (Proc.devRef .tc main_v79) = val_main_v81 (F := F) x0 x1 x2 x3 x4
  v80 : W (Proc.devRef .tc main_v80) = val_main_v82 (F := F) x1

/-- After the second scaling. -/
structure AfterScale2 : Prop where
  a5 : W (Proc.devRef .tc main_arg5) = x5
  v44 : W (Proc.devRef .tc main_v44) = val_main_v47 (F := F) x0 x1 x2 x3
  v47 : W (Proc.devRef .tc main_v47) = val_main_v50 (F := F) x1
  v81 : W (Proc.devRef .tc main_v81) = val_main_v84 (F := F) x0 x1 x2 x3 x4

/-- At the second epilogue's entry. -/
structure AtBias2 : Prop where
  a5 : W (Proc.devRef .tc main_arg5) = x5
  v44 : W (Proc.devRef .tc main_v44) = val_main_v47 (F := F) x0 x1 x2 x3
  v84 : W (Proc.devRef .tc main_v84) = val_main_v87 (F := F) x0 x1 x2 x3 x4

/-- At the return: the two results. -/
structure AtReturn : Prop where
  v44 : W (Proc.devRef .tc main_v44) = val_main_v47 (F := F) x0 x1 x2 x3
  v85 : W (Proc.devRef .tc main_v85) = val_main_v90 (F := F) x0 x1 x2 x3 x4 x5

variable {x0 x1 x2 x3 x4 x5 W}

set_option maxHeartbeats 4000000 in
/-- The first three stretches: the lists, the degrees, the inverse roots, the edge weights. -/
theorem atDot1_of (h : AtLaunch x0 x1 x2 x3 x4 x5 W) :
    AtDot1 x0 x1 x2 x3 x4 x5 (after hostOps0_2 (after hostOps0_1 (after hostOps0 W))) where
  a0 := by after_results; exact h.a0
  a2 := by after_results; exact h.a2
  a3 := by after_results; exact h.a3
  a4 := by after_results; exact h.a4
  a5 := by after_results; exact h.a5
  v1 := by after_results; rw [h.a1]; rfl
  v3 := by after_results; rw [h.a1]; rfl
  v5 := by after_results; rw [h.a1]; rfl
  v6 := by after_results; rw [h.a1]; rfl
  v30 := by after_results; simp only [TRef.ofBuf, TRef.toBuf, cast_eq]; rw [h.a1]; rfl

set_option maxHeartbeats 4000000 in
/-- The stretch before the first scaling: the wrapped source indices, the gather, the weight column. -/
theorem atScale1_of (h : AfterDot1 x0 x1 x2 x3 x4 x5 W) : AtScale1 x0 x1 x2 x3 x4 x5 (after hostOps1 W) where
  a3 := by after_results; exact h.a3
  a4 := by after_results; exact h.a4
  a5 := by after_results; exact h.a5
  v1 := by after_results; exact h.v1
  v3 := by after_results; exact h.v3
  v6 := by after_results; exact h.v6
  v38 := by after_results; rw [h.v31, h.v5]; rfl
  v39 := by after_results; rw [h.v30]; exact column_eq _ _ _

set_option maxHeartbeats 4000000 in
/-- The stretch before the first epilogue: the scatter-add over the target list. -/
theorem atBias1_of (h : AfterScale1 x0 x1 x2 x3 x4 x5 W) : AtBias1 x0 x1 x2 x3 x4 x5 (after hostOps2 W) where
  a3 := by after_results; exact h.a3
  a4 := by after_results; exact h.a4
  a5 := by after_results; exact h.a5
  v1 := by after_results; exact h.v1
  v3 := by after_results; exact h.v3
  v43 := by after_results; rw [h.v40, h.v6]; rfl

set_option maxHeartbeats 4000000 in
/-- The three stretches before the second product: the lists and the edge weights again. -/
theorem atDot2_of (h : AfterBias1 x0 x1 x2 x3 x4 x5 W) :
    AtDot2 x0 x1 x2 x3 x4 x5 (after hostOps3_2 (after hostOps3_1 (after hostOps3 W))) where
  a4 := by after_results; exact h.a4
  a5 := by after_results; exact h.a5
  v44 := by after_results; exact h.v44
  v46 := by after_results; rw [h.v1]; rfl
  v47 := by after_results; rw [h.v3]; rfl
  v71 := by after_results; simp only [TRef.ofBuf, TRef.toBuf, cast_eq]; rw [h.v1, h.v3]; rfl

set_option maxHeartbeats 4000000 in
/-- The stretch before the second scaling. -/
theorem atScale2_of (h : AfterDot2 x0 x1 x2 x3 x4 x5 W) : AtScale2 x0 x1 x2 x3 x4 x5 (after hostOps4 W) where
  a5 := by after_results; exact h.a5
  v44 := by after_results; exact h.v44
  v47 := by after_results; exact h.v47
  v79 := by after_results; rw [h.v72, h.v46]; rfl
  v80 := by after_results; rw [h.v71]; exact column_eq _ _ _

set_option maxHeartbeats 4000000 in
/-- The stretch before the second epilogue. -/
theorem atBias2_of (h : AfterScale2 x0 x1 x2 x3 x4 x5 W) : AtBias2 x0 x1 x2 x3 x4 x5 (after hostOps5 W) where
  a5 := by after_results; exact h.a5
  v44 := by after_results; exact h.v44
  v84 := by after_results; rw [h.v81, h.v47]; rfl

end Host

/-! ## The kernel regions, at the run's own boundary contents -/

section Regions

variable (m : (ℓ : Loc nD τ sig) → Buf (Elt Ideal) ℓ) (ρ : Dev nD → PrngReg) (c : Dev nD)
variable {x0 : (⟨S100000x128, .f32⟩ : BufTy).Contents (Elt Ideal)} {x1 : (⟨S2x1600000, .i32⟩ : BufTy).Contents (Elt Ideal)} {x2 : (⟨S128x128, .f32⟩ : BufTy).Contents (Elt Ideal)}
  {x3 : (⟨S128, .f32⟩ : BufTy).Contents (Elt Ideal)} {x4 : (⟨S128x40, .f32⟩ : BufTy).Contents (Elt Ideal)} {x5 : (⟨S40, .f32⟩ : BufTy).Contents (Elt Ideal)}

/-- Across the first product: its result array is the host's `dot_general` of the node features and the first weights. -/
theorem afterDot1_of (h : AtDot1 x0 x1 x2 x3 x4 x5 (W3 m ρ c)) : AfterDot1 x0 x1 x2 x3 x4 x5 (W4 m ρ c) where
  a3 := (W4_of_ne m ρ c main_arg3 (by decide)).trans h.a3
  a4 := (W4_of_ne m ρ c main_arg4 (by decide)).trans h.a4
  a5 := (W4_of_ne m ρ c main_arg5 (by decide)).trans h.a5
  v1 := (W4_of_ne m ρ c main_v1 (by decide)).trans h.v1
  v3 := (W4_of_ne m ρ c main_v3 (by decide)).trans h.v3
  v5 := (W4_of_ne m ρ c main_v5 (by decide)).trans h.v5
  v6 := (W4_of_ne m ρ c main_v6 (by decide)).trans h.v6
  v30 := (W4_of_ne m ρ c main_v30 (by decide)).trans h.v30
  v31 := (W4_arr m ρ c 2).trans ((region0_value (V3 m ρ) c).trans (by
    dsimp only [V3]
    rw [h.a0, h.a2]; rfl))

/-- Across the first scaling: the messages are the gathered rows times the broadcast weight column. -/
theorem afterScale1_of (h : AtScale1 x0 x1 x2 x3 x4 x5 (W5 m ρ c)) : AfterScale1 x0 x1 x2 x3 x4 x5 (W6 m ρ c) where
  a3 := (W6_of_ne m ρ c main_arg3 (by decide)).trans h.a3
  a4 := (W6_of_ne m ρ c main_arg4 (by decide)).trans h.a4
  a5 := (W6_of_ne m ρ c main_arg5 (by decide)).trans h.a5
  v1 := (W6_of_ne m ρ c main_v1 (by decide)).trans h.v1
  v3 := (W6_of_ne m ρ c main_v3 (by decide)).trans h.v3
  v6 := (W6_of_ne m ρ c main_v6 (by decide)).trans h.v6
  v40 := (W6_arr m ρ c 2).trans ((region1_value (V5 m ρ) c).trans (by
    dsimp only [V5]
    rw [h.v38, h.v39]; rfl))

/-- Across the first epilogue: the hidden layer is the maximum with zero of the aggregate plus the broadcast bias. -/
theorem afterBias1_of (h : AtBias1 x0 x1 x2 x3 x4 x5 (W7 m ρ c)) : AfterBias1 x0 x1 x2 x3 x4 x5 (W8 m ρ c) where
  a4 := (W8_of_ne m ρ c main_arg4 (by decide)).trans h.a4
  a5 := (W8_of_ne m ρ c main_arg5 (by decide)).trans h.a5
  v1 := (W8_of_ne m ρ c main_v1 (by decide)).trans h.v1
  v3 := (W8_of_ne m ρ c main_v3 (by decide)).trans h.v3
  v44 := (W8_arr m ρ c 2).trans ((region2_value (V7 m ρ) c).trans (by
    dsimp only [V7]
    rw [h.v43, h.a3]; rfl))

/-- Across the second product: the hidden layer is an input array of the region and keeps its contents. -/
theorem afterDot2_of (h : AtDot2 x0 x1 x2 x3 x4 x5 (W11 m ρ c)) : AfterDot2 x0 x1 x2 x3 x4 x5 (W12 m ρ c) where
  a5 := (W12_of_ne m ρ c main_arg5 (by decide)).trans h.a5
  v46 := (W12_of_ne m ρ c main_v46 (by decide)).trans h.v46
  v47 := (W12_of_ne m ρ c main_v47 (by decide)).trans h.v47
  v71 := (W12_of_ne m ρ c main_v71 (by decide)).trans h.v71
  v44 := (W12_arr m ρ c 0).trans (((dat3 (V11 m ρ) c).arrAt_in 0 rfl _).trans ((A_eq3 (V11 m ρ) c 0).trans h.v44))
  v72 := (W12_arr m ρ c 2).trans ((region3_value (V11 m ρ) c).trans (by
    dsimp only [V11]
    rw [h.v44, h.a4]; rfl))

/-- Across the second scaling. -/
theorem afterScale2_of (h : AtScale2 x0 x1 x2 x3 x4 x5 (W13 m ρ c)) : AfterScale2 x0 x1 x2 x3 x4 x5 (W14 m ρ c) where
  a5 := (W14_of_ne m ρ c main_arg5 (by decide)).trans h.a5
  v44 := (W14_of_ne m ρ c main_v44 (by decide)).trans h.v44
  v47 := (W14_of_ne m ρ c main_v47 (by decide)).trans h.v47
  v81 := (W14_arr m ρ c 2).trans ((region4_value (V13 m ρ) c).trans (by
    dsimp only [V13]
    rw [h.v79, h.v80]; rfl))

/-- Across the second epilogue: the logits are the aggregate plus the broadcast bias. -/
theorem atReturn_of (h : AtBias2 x0 x1 x2 x3 x4 x5 (W15 m ρ c)) : AtReturn x0 x1 x2 x3 x4 x5 (W16 m ρ c) where
  v44 := (W16_of_ne m ρ c main_v44 (by decide)).trans h.v44
  v85 := (W16_arr m ρ c 2).trans ((region5_value (V15 m ρ) c).trans (by
    dsimp only [V15]
    rw [h.v84, h.a5]; rfl))

/-- The whole walk: at the return the two result buffers hold the reference's two result stages of the launch
    contents of the six arguments. -/
theorem atReturn :
    AtReturn (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (W16 m ρ c) :=
  atReturn_of m ρ c (atBias2_of (afterScale2_of m ρ c (atScale2_of (afterDot2_of m ρ c (atDot2_of (afterBias1_of m ρ c
    (atBias1_of (afterScale1_of m ρ c (atScale1_of (afterDot1_of m ρ c (atDot1_of
      (W := W0 m ρ c) ⟨rfl, rfl, rfl, rfl, rfl, rfl⟩)))))))))))

end Regions

/-! ## The run, read -/

/-- Every weakly fair execution of the kernel program terminates with its two results at the reference's two
    result stages of the arguments, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v85) = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v44) = val_main_v47 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun r h c => ⟨(h c).1.trans (atReturn m ρ c).v85, (h c).2.1.trans (atReturn m ρ c).v44, (h c).2.2⟩)
    (run_results (F := Ideal) m ρ)

end Cert.KernelIdeal.Hand

end
-- ==== Proof.lean ====
/-
  A two-layer graph convolution: kernel against reference, on the extended reals.

  Per layer both programs append the self loops to the edge list, take each node's degree by a scatter-add of ones
  over the targets, the inverse square root of the degree where it is positive (zero elsewhere), and weight edge
  (s, t) by the product of the two inverse roots; then they multiply the node features by the layer's weights, gather
  the products' rows at the sources, scale row e by edge e's weight, scatter-add the scaled rows over the targets and
  add the bias (the first layer then takes the maximum with zero). The reference does all of it with host operations.
  The kernel program does the three dense steps of each layer — the product, the scaling, the bias epilogue — in
  kernel regions that walk the rows block by block, and the rest with the same host operations as the reference.

  Read on the extended reals the two are one function, stage for stage, and no law of arithmetic is needed to see
  it — only that a row block of a product is the product of the row block (both are the same sum over the shared
  axis, and rounding the operands to bf16 first changes nothing there), that scaling or shifting a block of rows is
  the block of the scaled or shifted rows, and that the reshape of the edge weights to a column is their broadcast
  along a new unit axis. So the finiteness of the inputs is never used. The kernel program's run is the launch over
  its sixteen segments, read at the two result buffers (`Proof/KernelRun.lean`); what those hold is walked boundary
  by boundary in `Proof/KernelChain.lean` over the regions' whole-array values (`Proof/RegionDot.lean`,
  `Proof/RegionScale.lean`, `Proof/RegionBias.lean`); the reference's run and its stages are `Proof/RefRunP.lean`
  and `Proof/RefReadP.lean`. The idealization rewrote nothing, so the kernel's idealized text is its own text.
-/
import proofs.«108383_j15479062135311_1_alg».proof.Defs
import proofs.«108383_j15479062135311_1_alg».proof.Proof.Gen.Kernel
import proofs.«108383_j15479062135311_1_alg».proof.Proof.Gen.Kernel.Skeleton
import proofs.«108383_j15479062135311_1_alg».proof.Proof.Gen.Kernel.Launch
import proofs.«108383_j15479062135311_1_alg».proof.Proof.Gen.Kernel.Points
import proofs.«108383_j15479062135311_1_alg».proof.Proof.Gen.Kernel.Frame
import proofs.«108383_j15479062135311_1_alg».proof.Proof.Gen.KernelIdeal
import proofs.«108383_j15479062135311_1_alg».proof.Proof.Gen.KernelIdeal.Skeleton
import proofs.«108383_j15479062135311_1_alg».proof.Proof.Gen.KernelIdeal.Launch
import proofs.«108383_j15479062135311_1_alg».proof.Proof.Gen.KernelIdeal.Points
import proofs.«108383_j15479062135311_1_alg».proof.Proof.Gen.KernelIdeal.Frame
import proofs.«108383_j15479062135311_1_alg».proof.Proof.Gen.ReferenceIdeal
import proofs.«108383_j15479062135311_1_alg».proof.Proof.Gen.Pre_finite_inputs
import proofs.«108383_j15479062135311_1_alg».proof.Proof.RefRunP
import proofs.«108383_j15479062135311_1_alg».proof.Proof.RefReadP
import proofs.«108383_j15479062135311_1_alg».proof.Proof.KernelChain
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both programs end with the logits at the reference's last stage of the arguments and the hidden layer at its
    first layer's last stage. -/
theorem algebraic : Cert.algebraic_KernelIdeal_ReferenceIdeal := by
  intro m ρ m' ρ' _ hagree
  refine ⟨fun c => Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ?_) (Cert.ReferenceIdeal.ValueP.run (F := Ideal) m' ρ')
  obtain ⟨h0, h1, hargs⟩ := h c
  obtain ⟨e0, e1, e2, e3, e4, e5⟩ := hagree c
  refine ⟨h0.trans ?_, h1.trans ?_, hargs⟩
  · rw [Cert.ReferenceIdeal.ReadP.val_main_v90_eq, e0, e1, e2, e3, e4, e5]
  · rw [Cert.ReferenceIdeal.ReadP.val_main_v47_eq, e0, e1, e2, e3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
